-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000x3 : Shape := ⟨2, ![1000000, 3]⟩
abbrev S119 : Shape := ⟨1, ![119]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S119 : S_.BroadcastsInDim S119 (![] : Fin 0 → Fin S119.rank)
  reducesTo_S119_S_d0 : S119.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1000000x128 .f32) (main_arg1 : FVec F S1000000x3 .f32) (main_arg2 : FVec F S119 .f32) (main_arg3 : FVec F S128x64 .f32) (main_arg4 : FVec F S64 .f32) (main_arg5 : FVec F S64x1 .f32) (main_arg6 : FVec F S1 .f32) (main_arg7 : IVec S1000000 32) (main_arg8 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x3 .f32 := Host.absf main_arg1
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S119 .f32 := Host.absf main_arg2
  let main_cst_2 : FVec F S_ .f32 := constant S_ .f32 0x7F800000#32
  let main_v10 : FVec F S119 .f32 := broadcastInDim S119 ![] bcast_S_S119 main_cst_2
  let main_v11 : IVec S119 1 := cmpf .olt main_v9 main_v10
  let main_c_3 : IVec S_ 1 := constantI S_ 1 1#1
  let main_v12 : IVec S_ 1 := (fun x v => Host.reduce IntOp.andi x v reducesTo_S119_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S1000000x128 : Shape := ⟨2, ![1000000, 128]⟩
abbrev S1000000x3 : Shape := ⟨2, ![1000000, 3]⟩
abbrev S119 : Shape := ⟨1, ![119]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S_ : Shape := ⟨0, ![]⟩
abbrev S1007616x128 : Shape := ⟨2, ![1007616, 128]⟩
abbrev S1x64 : Shape := ⟨2, ![1, 64]⟩
abbrev S1x1 : Shape := ⟨2, ![1, 1]⟩
abbrev S1007616x1 : Shape := ⟨2, ![1007616, 1]⟩
abbrev S8192x128 : Shape := ⟨2, ![8192, 128]⟩
abbrev S8192x1 : Shape := ⟨2, ![8192, 1]⟩
abbrev S8192x64 : Shape := ⟨2, ![8192, 64]⟩
abbrev S1000000x1 : Shape := ⟨2, ![1000000, 1]⟩
abbrev S50000x1 : Shape := ⟨2, ![50000, 1]⟩
abbrev S50000x3 : Shape := ⟨2, ![50000, 3]⟩

abbrev nBuf : Space → Nat
  | .hbm => 57
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000000x3, .f32⟩
  | .hbm, ⟨2, _⟩ => ⟨S119, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .i32⟩
  | .hbm, ⟨10, _⟩ => ⟨S_, .f32⟩
  | .hbm, ⟨11, _⟩ => ⟨S1007616x128, .f32⟩
  | .hbm, ⟨12, _⟩ => ⟨S1x64, .f32⟩
  | .hbm, ⟨13, _⟩ => ⟨S1x1, .f32⟩
  | .hbm, ⟨14, _⟩ => ⟨S1007616x1, .f32⟩
  | .hbm, ⟨15, _⟩ => ⟨S1000000x1, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000, .f32⟩
  | .hbm, ⟨25, _⟩ => ⟨S1000000x1, .f32⟩
  | .hbm, ⟨26, _⟩ => ⟨S1000000x3, .f32⟩
  | .hbm, ⟨27, _⟩ => ⟨S1000000x3, .f32⟩
  | .hbm, ⟨28, _⟩ => ⟨S_, .f32⟩
  | .hbm, ⟨29, _⟩ => ⟨S50000x1, .f32⟩
  | .hbm, ⟨30, _⟩ => ⟨S1000000x1, .i32⟩
  | .hbm, ⟨31, _⟩ => ⟨S50000x1, .f32⟩
  | .hbm, ⟨32, _⟩ => ⟨S_, .f32⟩
  | .hbm, ⟨33, _⟩ => ⟨S50000x3, .f32⟩
  | .hbm, ⟨34, _⟩ => ⟨S1000000x1, .i32⟩
  | .hbm, ⟨35, _⟩ => ⟨S50000x3, .f32⟩
  | .hbm, ⟨36, _⟩ => ⟨S50000x3, .f32⟩
  | .hbm, ⟨37, _⟩ => ⟨S50000x3, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x3, .f32⟩
  | .hbm, ⟨47, _⟩ => ⟨S1000000x3, .f32⟩
  | .hbm, ⟨48, _⟩ => ⟨S1000000x3, .f32⟩
  | .hbm, ⟨49, _⟩ => ⟨S_, .f32⟩
  | .hbm, ⟨50, _⟩ => ⟨S1000000, .f32⟩
  | .hbm, ⟨51, _⟩ => ⟨S1000000x1, .f32⟩
  | .hbm, ⟨52, _⟩ => ⟨S1000000x1, .f32⟩
  | .hbm, ⟨53, _⟩ => ⟨S_, .f32⟩
  | .hbm, ⟨54, _⟩ => ⟨S50000x1, .f32⟩
  | .hbm, ⟨55, _⟩ => ⟨S1000000x1, .i32⟩
  | .hbm, ⟨56, _⟩ => ⟨S50000x1, .f32⟩
  | .local _ .vmem, ⟨0, _⟩ => ⟨S8192x128, .f32⟩
  | .local _ .vmem, ⟨1, _⟩ => ⟨S8192x128, .f32⟩
  | .local _ .vmem, ⟨2, _⟩ => ⟨S128x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S8192x1, .f32⟩
  | .local _ .vmem, ⟨7, _⟩ => ⟨S8192x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000000x128_S1007616x128_076160_000 : S1000000x128.Pads (![0, 0] : Fin 2 → Nat) ![7616, 0] ![0, 0] S1007616x128
  h_S_ : 0 < S_.numel
  shapeCasts_S64_S1x64 : S64.ShapeCasts S1x64
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S1007616x1_S1000000x1_0_0 : S1007616x1.Slices ![0, 0] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  bcast_S_S50000x1 : S_.BroadcastsInDim S50000x1 (![] : Fin 0 → Fin S50000x1.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  reducesTo_S1000000x3_S1000000_d1 : S1000000x3.ReducesTo [1] S1000000
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  gather_S119_S1000000x1_S1000000_n_0_n_n_0_1_1_wf : GatherDims.WF S119 S1000000x1 S1000000 [] [0] [] [0] [] 1 ![1]
  scatter_S50000x1_S1000000x1_S1000000x1_1_0_0_1_wf : ScatterDims.WF S50000x1 S1000000x1 S1000000x1 [1] [0] [0] 1
  scatter_S50000x3_S1000000x1_S1000000x3_1_0_0_1_wf : ScatterDims.WF S50000x3 S1000000x1 S1000000x3 [1] [0] [0] 1
  gather_S50000x3_S1000000x1_S1000000x3_1_0_n_n_0_1_13_wf : GatherDims.WF S50000x3 S1000000x1 S1000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x1.size a ≤ S1007616x1.size a
  hwx0_5 : ∀ i : grid0.Coords, EltTy.bits .f32 = 32 ∨ (Rect.block (s := S1007616x1) S8192x1.size (cc0_transform_5 i) (hinb0_5 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def gather_S119_S1000000x1_S1000000_n_0_n_n_0_1_1 : GatherDims S119 S1000000x1 S1000000 where
  offsetDims := []
  collapsedSliceDims := [0]
  operandBatchingDims := []
  startIndicesBatchingDims := []
  startIndexMap := [0]
  indexVectorDim := 1
  sliceSizes := ![1]
  wf := gather_S119_S1000000x1_S1000000_n_0_n_n_0_1_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def scatter_S50000x3_S1000000x1_S1000000x3_1_0_0_1 : ScatterDims S50000x3 S1000000x1 S1000000x3 where
  updateWindowDims := [1]
  insertedWindowDims := [0]
  scatterDimsToOperandDims := [0]
  indexVectorDim := 1
  wf := scatter_S50000x3_S1000000x1_S1000000x3_1_0_0_1_wf
def gather_S50000x3_S1000000x1_S1000000x3_1_0_n_n_0_1_13 : GatherDims S50000x3 S1000000x1 S1000000x3 where
  offsetDims := [1]
  collapsedSliceDims := [0]
  operandBatchingDims := []
  startIndicesBatchingDims := []
  startIndexMap := [0]
  indexVectorDim := 1
  sliceSizes := ![1, 3]
  wf := gather_S50000x3_S1000000x1_S1000000x3_1_0_n_n_0_1_13_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8192x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000x3 : Shape := ⟨2, ![1000000, 3]⟩
abbrev S119 : Shape := ⟨1, ![119]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S50000x3 : Shape := ⟨2, ![50000, 3]⟩
abbrev S50000x1 : Shape := ⟨2, ![50000, 1]⟩
abbrev S1000000x64 : Shape := ⟨2, ![1000000, 64]⟩
abbrev S1x64 : Shape := ⟨2, ![1, 64]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x3, .f32⟩
  | .hbm, ⟨2, _⟩ => ⟨S119, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000, .f32⟩
  | .hbm, ⟨18, _⟩ => ⟨S1000000x1, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S50000x3, .f32⟩
  | .hbm, ⟨23, _⟩ => ⟨S1000000x1, .i32⟩
  | .hbm, ⟨24, _⟩ => ⟨S50000x3, .f32⟩
  | .hbm, ⟨25, _⟩ => ⟨S_, .f32⟩
  | .hbm, ⟨26, _⟩ => ⟨S50000x1, .f32⟩
  | .hbm, ⟨27, _⟩ => ⟨S1000000x1, .i32⟩
  | .hbm, ⟨28, _⟩ => ⟨S50000x1, .f32⟩
  | .hbm, ⟨29, _⟩ => ⟨S50000x3, .f32⟩
  | .hbm, ⟨30, _⟩ => ⟨S50000x3, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x3, .f32⟩
  | .hbm, ⟨40, _⟩ => ⟨S1000000x3, .f32⟩
  | .hbm, ⟨41, _⟩ => ⟨S1000000x64, .f32⟩
  | .hbm, ⟨42, _⟩ => ⟨S1x64, .f32⟩
  | .hbm, ⟨43, _⟩ => ⟨S1000000x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S1000000x64, .f32⟩
  | .hbm, ⟨49, _⟩ => ⟨S1000000x64, .f32⟩
  | .hbm, ⟨50, _⟩ => ⟨S_, .f32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S1000000x1, .f32⟩
  | .hbm, ⟨55, _⟩ => ⟨S1x1, .f32⟩
  | .hbm, ⟨56, _⟩ => ⟨S1000000x1, .f32⟩
  | .hbm, ⟨57, _⟩ => ⟨S1000000x1, .f32⟩
  | .hbm, ⟨58, _⟩ => ⟨S1000000x3, .f32⟩
  | .hbm, ⟨59, _⟩ => ⟨S_, .f32⟩
  | .hbm, ⟨60, _⟩ => ⟨S1000000, .f32⟩
  | .hbm, ⟨61, _⟩ => ⟨S1000000x1, .f32⟩
  | .hbm, ⟨62, _⟩ => ⟨S1000000x1, .f32⟩
  | .hbm, ⟨63, _⟩ => ⟨S_, .f32⟩
  | .hbm, ⟨64, _⟩ => ⟨S50000x1, .f32⟩
  | .hbm, ⟨65, _⟩ => ⟨S1000000x1, .i32⟩
  | .hbm, ⟨66, _⟩ => ⟨S50000x1, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x3_S1000000_d1 : S1000000x3.ReducesTo [1] S1000000
  h_S_ : 0 < S_.numel
  gather_S119_S1000000x1_S1000000_n_0_n_n_0_1_1_wf : GatherDims.WF S119 S1000000x1 S1000000 [] [0] [] [0] [] 1 ![1]
  scatter_S50000x3_S1000000x1_S1000000x3_1_0_0_1_wf : ScatterDims.WF S50000x3 S1000000x1 S1000000x3 [1] [0] [0] 1
  scatter_S50000x1_S1000000x1_S1000000x1_1_0_0_1_wf : ScatterDims.WF S50000x1 S1000000x1 S1000000x1 [1] [0] [0] 1
  gather_S50000x3_S1000000x1_S1000000x3_1_0_n_n_0_1_13_wf : GatherDims.WF S50000x3 S1000000x1 S1000000x3 [1] [0] [] [0] [] 1 ![1, 3]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def gather_S119_S1000000x1_S1000000_n_0_n_n_0_1_1 : GatherDims S119 S1000000x1 S1000000 where
  offsetDims := []
  collapsedSliceDims := [0]
  operandBatchingDims := []
  startIndicesBatchingDims := []
  startIndexMap := [0]
  indexVectorDim := 1
  sliceSizes := ![1]
  wf := gather_S119_S1000000x1_S1000000_n_0_n_n_0_1_1_wf
def scatter_S50000x3_S1000000x1_S1000000x3_1_0_0_1 : ScatterDims S50000x3 S1000000x1 S1000000x3 where
  updateWindowDims := [1]
  insertedWindowDims := [0]
  scatterDimsToOperandDims := [0]
  indexVectorDim := 1
  wf := scatter_S50000x3_S1000000x1_S1000000x3_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def gather_S50000x3_S1000000x1_S1000000x3_1_0_n_n_0_1_13 : GatherDims S50000x3 S1000000x1 S1000000x3 where
  offsetDims := [1]
  collapsedSliceDims := [0]
  operandBatchingDims := []
  startIndicesBatchingDims := []
  startIndexMap := [0]
  indexVectorDim := 1
  sliceSizes := ![1, 3]
  wf := gather_S50000x3_S1000000x1_S1000000x3_1_0_n_n_0_1_13_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Mlp.lean ====
/-
  A two-layer perceptron with SiLU, one row at a time.

  For a row `x` of `K` numbers, a `K × N` matrix `W1`, a bias row `b1`, a column `W2` of `N` numbers and a bias `b2`,
  hidden unit `k` is `h k = ∑ j, x j · W1 j k + b1 k` and the perceptron's one output is
  `∑ k, silu (h k) · W2 k + b2` with `silu h = h · logistic h`, on the extended reals. The logistic function is by
  definition `1 / (1 + e^(-h))` there, so a program that applies it as one operation and a program that spells it with
  negate, exponential, add and divide compute the same number at every extended real, the infinities included.

  A rows-by-columns product read at (r, k) is a sum over the contracted axis whether it is accumulated into a zero
  array over a tile of rows or taken over all the rows at once (LibDense), a change of float format is the identity on
  the extended reals, and a one-row bias laid along every row reads its one row: so both spellings, read at (r, 0), are
  the perceptron of row `r`.
-/
import proofs.«110449_j77781857730660_1_alg».proof.Proof.LibDense
import Idealize.ShloMosaic.Lib.IdealHost

noncomputable section

namespace Cert.Mlp

open Idealize.ShloMosaic Idealize.ShloMosaic.ValueIdx

/-- `silu h = h · logistic h`. -/
def silu (h : EReal) : EReal := h * Ideal.logistic h

/-- Hidden unit `k` of a row: `∑ j, x j · W1 j k + b1 k`. -/
def hidden {K N : ℕ} (x : Fin K → EReal) (W1 : Fin K → Fin N → EReal) (b1 : Fin N → EReal) (k : Fin N) : EReal :=
  ∑ j : Fin K, x j * W1 j k + b1 k

/-- The perceptron's output for a row: `∑ k, silu (hidden k) · W2 k + b2`. -/
def mlp {K N : ℕ} (x : Fin K → EReal) (W1 : Fin K → Fin N → EReal) (b1 : Fin N → EReal) (W2 : Fin N → EReal) (b2 : EReal) :
    EReal :=
  ∑ k : Fin N, silu (hidden x W1 b1 k) * W2 k + b2

/-- The perceptron depends on its row, weights and biases only through their entries. -/
theorem mlp_ext {K N : ℕ} {x x' : Fin K → EReal} {W1 W1' : Fin K → Fin N → EReal} {b1 b1' : Fin N → EReal}
    {W2 W2' : Fin N → EReal} {b2 b2' : EReal} (ex : ∀ j, x j = x' j) (eW1 : ∀ j k, W1 j k = W1' j k)
    (eb1 : ∀ k, b1 k = b1' k) (eW2 : ∀ k, W2 k = W2' k) (eb2 : b2 = b2') :
    mlp x W1 b1 W2 b2 = mlp x' W1' b1' W2' b2' := by
  rw [show x = x' from funext ex, show W1 = W1' from funext fun j => funext (eW1 j), show b1 = b1' from funext eb1,
    show W2 = W2' from funext eW2, eb2]

/-- The perceptron applied to every row of an `R × K` array: entry (r, 0) of the `R × 1` result is the perceptron of
    row `r`, the biases given as vectors. -/
def rows {R K N : ℕ} (x : (⟨2, ![R, K]⟩ : Shape).Idx → EReal) (W1 : (⟨2, ![K, N]⟩ : Shape).Idx → EReal)
    (b1 : (⟨1, ![N]⟩ : Shape).Idx → EReal) (W2 : (⟨2, ![N, 1]⟩ : Shape).Idx → EReal) (b2 : (⟨1, ![1]⟩ : Shape).Idx → EReal) :
    (⟨2, ![R, 1]⟩ : Shape).Idx → EReal :=
  fun i => mlp (fun j => x (ix2 (i 0) j)) (fun j k => W1 (ix2 j k)) (fun k => b1 (ix1 k)) (fun k => W2 (ix2 k (0 : Fin 1)))
    (b2 (ix1 (0 : Fin 1)))

/-- The logistic function spelt with negate, exponential, add and divide, the ones as the f32 pattern of 1. -/
theorem logistic_spelt (h : EReal) :
    Ideal.div (Ideal.ofBits .f32 0x3F800000#32) (Ideal.ofBits .f32 0x3F800000#32 + Ideal.exp (-h)) = Ideal.logistic h := by
  rw [Ideal.ofBits_one_f32]
  rfl

section Kernel

variable {M K N : ℕ}

/-- The first layer as a kernel spells it — the input and the weights changed to another float format, their product
    into a zero accumulator, a one-row bias laid along every row — read at (r, k). -/
theorem kernel_hidden_apply (d1 : DotDims ⟨2, ![M, K]⟩ ⟨2, ![K, N]⟩ ⟨2, ![M, N]⟩) (hd1 : d1 = DotDims.plain M K N)
    (x : FVec Ideal ⟨2, ![M, K]⟩ .f32) (W1 : FVec Ideal ⟨2, ![K, N]⟩ .f32) (b1 : FVec Ideal ⟨2, ![1, N]⟩ .f32)
    (hx : (⟨2, ![M, K]⟩ : Shape).ShapeCasts ⟨2, ![M, K]⟩) (hb : (⟨2, ![1, N]⟩ : Shape).ShapeCasts ⟨2, ![1, N]⟩)
    (hbc : (⟨2, ![1, N]⟩ : Shape).Broadcasts ⟨2, ![M, N]⟩) (hlt : FTy.bits .bf16 < FTy.bits .f32) (r : Fin M) (k : Fin N) :
    addf (matmul d1 none (truncf .bf16 (shapeCast ⟨2, ![M, K]⟩ x hx) hlt) (truncf .bf16 W1 hlt)
          (constant (F := Ideal) ⟨2, ![M, N]⟩ .f32 0x00000000#32))
        (broadcastTo ⟨2, ![M, N]⟩ (shapeCast ⟨2, ![1, N]⟩ b1 hb) hbc) (ix2 r k)
      = hidden (fun j => x (ix2 r j)) (fun j k => W1 (ix2 j k)) (fun k => b1 (ix2 (0 : Fin 1) k)) k := by
  subst hd1
  show FloatOps.matmul (DotDims.plain M K N) none (truncf .bf16 (shapeCast ⟨2, ![M, K]⟩ x hx) hlt) (truncf .bf16 W1 hlt)
      (constant ⟨2, ![M, N]⟩ .f32 0x00000000#32) (ix2 r k)
      + broadcastTo ⟨2, ![M, N]⟩ (shapeCast ⟨2, ![1, N]⟩ b1 hb) hbc (ix2 r k) = _
  rw [LibDense.matmul_plain_zero_apply, broadcastTo_1b_ab_apply, shapeCast_self, shapeCast_self]
  rfl

/-- The whole perceptron as a kernel spells it — `tpu.logistic` as one operation — read at (r, 0). -/
theorem kernel_mlp_apply (d1 : DotDims ⟨2, ![M, K]⟩ ⟨2, ![K, N]⟩ ⟨2, ![M, N]⟩) (hd1 : d1 = DotDims.plain M K N)
    (d2 : DotDims ⟨2, ![M, N]⟩ ⟨2, ![N, 1]⟩ ⟨2, ![M, 1]⟩) (hd2 : d2 = DotDims.plain M N 1)
    (x : FVec Ideal ⟨2, ![M, K]⟩ .f32) (W1 : FVec Ideal ⟨2, ![K, N]⟩ .f32) (b1 : FVec Ideal ⟨2, ![1, N]⟩ .f32)
    (W2 : FVec Ideal ⟨2, ![N, 1]⟩ .f32) (b2 : FVec Ideal ⟨2, ![1, 1]⟩ .f32)
    (hx : (⟨2, ![M, K]⟩ : Shape).ShapeCasts ⟨2, ![M, K]⟩) (hb1 : (⟨2, ![1, N]⟩ : Shape).ShapeCasts ⟨2, ![1, N]⟩)
    (hbc1 : (⟨2, ![1, N]⟩ : Shape).Broadcasts ⟨2, ![M, N]⟩) (hb2 : (⟨2, ![1, 1]⟩ : Shape).ShapeCasts ⟨2, ![1, 1]⟩)
    (hbc2 : (⟨2, ![1, 1]⟩ : Shape).Broadcasts ⟨2, ![M, 1]⟩) (hlt : FTy.bits .bf16 < FTy.bits .f32) (r : Fin M) :
    addf (matmul d2 none
          (truncf .bf16
            (mulf
              (addf (matmul d1 none (truncf .bf16 (shapeCast ⟨2, ![M, K]⟩ x hx) hlt) (truncf .bf16 W1 hlt)
                  (constant (F := Ideal) ⟨2, ![M, N]⟩ .f32 0x00000000#32))
                (broadcastTo ⟨2, ![M, N]⟩ (shapeCast ⟨2, ![1, N]⟩ b1 hb1) hbc1))
              (logistic
                (addf (matmul d1 none (truncf .bf16 (shapeCast ⟨2, ![M, K]⟩ x hx) hlt) (truncf .bf16 W1 hlt)
                    (constant (F := Ideal) ⟨2, ![M, N]⟩ .f32 0x00000000#32))
                  (broadcastTo ⟨2, ![M, N]⟩ (shapeCast ⟨2, ![1, N]⟩ b1 hb1) hbc1)))) hlt)
          (truncf .bf16 W2 hlt) (constant (F := Ideal) ⟨2, ![M, 1]⟩ .f32 0x00000000#32))
        (broadcastTo ⟨2, ![M, 1]⟩ (shapeCast ⟨2, ![1, 1]⟩ b2 hb2) hbc2) (ix2 r (0 : Fin 1))
      = mlp (fun j => x (ix2 r j)) (fun j k => W1 (ix2 j k)) (fun k => b1 (ix2 (0 : Fin 1) k)) (fun k => W2 (ix2 k (0 : Fin 1)))
          (b2 (ix2 (0 : Fin 1) (0 : Fin 1))) := by
  subst hd2
  show FloatOps.matmul (DotDims.plain M N 1) none _ (truncf .bf16 W2 hlt) (constant ⟨2, ![M, 1]⟩ .f32 0x00000000#32)
      (ix2 r (0 : Fin 1))
      + broadcastTo ⟨2, ![M, 1]⟩ (shapeCast ⟨2, ![1, 1]⟩ b2 hb2) hbc2 (ix2 r (0 : Fin 1)) = _
  rw [LibDense.matmul_plain_zero_apply, broadcastTo_1b_ab_apply, shapeCast_self b2]
  unfold mlp
  refine congrArg (· + b2 (ix2 (0 : Fin 1) (0 : Fin 1))) (Finset.sum_congr rfl fun k _ => ?_)
  have hk := kernel_hidden_apply d1 hd1 x W1 b1 hx hb1 hbc1 hlt r k
  show (_ * Ideal.logistic _) * W2 (ix2 k (0 : Fin 1)) = silu _ * W2 (ix2 k (0 : Fin 1))
  unfold silu
  rw [hk]

end Kernel

section Host

variable {M K N : ℕ}

/-- The first layer as a host program spells it — the product, a bias vector laid along axis 1 of a one-row matrix and
    that row down the rows — read at (e, k). -/
theorem host_hidden_apply (d1 : DotDims ⟨2, ![M, K]⟩ ⟨2, ![K, N]⟩ ⟨2, ![M, N]⟩) (hd1 : d1 = DotDims.plain M K N)
    (x : FVec Ideal ⟨2, ![M, K]⟩ .f32) (W1 : FVec Ideal ⟨2, ![K, N]⟩ .f32) (b1 : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (e : Fin M) (k : Fin N) :
    addf (Host.dotGeneral d1 none x W1)
        (broadcastInDim ⟨2, ![M, N]⟩ ![0, 1] h2 (broadcastInDim ⟨2, ![1, N]⟩ ![1] h1 b1)) (ix2 e k)
      = hidden (fun j => x (ix2 e j)) (fun j k => W1 (ix2 j k)) (fun k => b1 (ix1 k)) k := by
  subst hd1
  have e2 := broadcastInDim_oneRow_apply h2 (broadcastInDim ⟨2, ![1, N]⟩ ![1] h1 b1) e k
  have e1 := broadcastInDim_apply ![1] h1 b1 (ix2 (0 : Fin 1) k) (ix1 k) (fun a => by
    match a with
    | ⟨0, _⟩ =>
      show k.val = if N = 1 then 0 else k.val
      split
      · have := k.isLt; omega
      · rfl)
  show FloatOps.dotGeneral (DotDims.plain M K N) none .single x W1 (ix2 e k)
      + broadcastInDim ⟨2, ![M, N]⟩ ![0, 1] h2 (broadcastInDim ⟨2, ![1, N]⟩ ![1] h1 b1) (ix2 e k) = _
  rw [LibDense.dotGeneral_plain_apply, e2, e1]
  rfl

/-- The whole perceptron as a host program spells it — the logistic function as `1 / (1 + exp (-h))`, each one a
    broadcast constant — read at (e, 0). -/
theorem host_mlp_apply (d1 : DotDims ⟨2, ![M, K]⟩ ⟨2, ![K, N]⟩ ⟨2, ![M, N]⟩) (hd1 : d1 = DotDims.plain M K N)
    (d2 : DotDims ⟨2, ![M, N]⟩ ⟨2, ![N, 1]⟩ ⟨2, ![M, 1]⟩) (hd2 : d2 = DotDims.plain M N 1)
    (x : FVec Ideal ⟨2, ![M, K]⟩ .f32) (W1 : FVec Ideal ⟨2, ![K, N]⟩ .f32) (b1 : FVec Ideal ⟨1, ![N]⟩ .f32)
    (W2 : FVec Ideal ⟨2, ![N, 1]⟩ .f32) (b2 : FVec Ideal ⟨1, ![1]⟩ .f32)
    (h11 : (⟨1, ![N]⟩ : Shape).BroadcastsInDim ⟨2, ![1, N]⟩ ![1])
    (h12 : (⟨2, ![1, N]⟩ : Shape).BroadcastsInDim ⟨2, ![M, N]⟩ ![0, 1])
    (h0 : (⟨0, ![]⟩ : Shape).BroadcastsInDim ⟨2, ![M, N]⟩ ![])
    (h21 : (⟨1, ![1]⟩ : Shape).BroadcastsInDim ⟨2, ![1, 1]⟩ ![1])
    (h22 : (⟨2, ![1, 1]⟩ : Shape).BroadcastsInDim ⟨2, ![M, 1]⟩ ![0, 1]) (e : Fin M) :
    addf (Host.dotGeneral d2 none
          (mulf
            (addf (Host.dotGeneral d1 none x W1)
              (broadcastInDim ⟨2, ![M, N]⟩ ![0, 1] h12 (broadcastInDim ⟨2, ![1, N]⟩ ![1] h11 b1)))
            (Host.divf (broadcastInDim ⟨2, ![M, N]⟩ ![] h0 (constant (F := Ideal) ⟨0, ![]⟩ .f32 0x3F800000#32))
              (addf (broadcastInDim ⟨2, ![M, N]⟩ ![] h0 (constant (F := Ideal) ⟨0, ![]⟩ .f32 0x3F800000#32))
                (Host.exp (Host.negf
                  (addf (Host.dotGeneral d1 none x W1)
                    (broadcastInDim ⟨2, ![M, N]⟩ ![0, 1] h12 (broadcastInDim ⟨2, ![1, N]⟩ ![1] h11 b1))))))))
          W2)
        (broadcastInDim ⟨2, ![M, 1]⟩ ![0, 1] h22 (broadcastInDim ⟨2, ![1, 1]⟩ ![1] h21 b2)) (ix2 e (0 : Fin 1))
      = mlp (fun j => x (ix2 e j)) (fun j k => W1 (ix2 j k)) (fun k => b1 (ix1 k)) (fun k => W2 (ix2 k (0 : Fin 1)))
          (b2 (ix1 (0 : Fin 1))) := by
  subst hd2
  have e2 := broadcastInDim_oneRow_apply h22 (broadcastInDim ⟨2, ![1, 1]⟩ ![1] h21 b2) e (0 : Fin 1)
  have e1 := broadcastInDim_apply ![1] h21 b2 (ix2 (0 : Fin 1) (0 : Fin 1)) (ix1 (0 : Fin 1)) (fun a => by
    match a with
    | ⟨0, _⟩ => rfl)
  show FloatOps.dotGeneral (DotDims.plain M N 1) none .single _ W2 (ix2 e (0 : Fin 1))
      + broadcastInDim ⟨2, ![M, 1]⟩ ![0, 1] h22 (broadcastInDim ⟨2, ![1, 1]⟩ ![1] h21 b2) (ix2 e (0 : Fin 1)) = _
  rw [LibDense.dotGeneral_plain_apply, e2, e1]
  unfold mlp
  refine congrArg (· + b2 (ix1 (0 : Fin 1))) (Finset.sum_congr rfl fun k _ => ?_)
  have hk := host_hidden_apply d1 hd1 x W1 b1 h11 h12 e k
  have e0 := broadcastInDim_apply ![] h0 (constant (F := Ideal) ⟨0, ![]⟩ .f32 0x3F800000#32) (ix2 e k) (fun a => a.elim0)
    (fun a => a.elim0)
  show (_ * Ideal.div (broadcastInDim ⟨2, ![M, N]⟩ ![] h0 (constant (F := Ideal) ⟨0, ![]⟩ .f32 0x3F800000#32) (ix2 e k))
      (broadcastInDim ⟨2, ![M, N]⟩ ![] h0 (constant (F := Ideal) ⟨0, ![]⟩ .f32 0x3F800000#32) (ix2 e k) + Ideal.exp (-_)))
      * W2 (ix2 k (0 : Fin 1)) = silu _ * W2 (ix2 k (0 : Fin 1))
  rw [e0, hk]
  show (_ * Ideal.div (Ideal.ofBits .f32 0x3F800000#32) (Ideal.ofBits .f32 0x3F800000#32 + Ideal.exp (-_))) * _ = _
  rw [logistic_spelt]
  rfl

end Host

end Cert.Mlp

end
-- ==== Proof.KernelBlocks.lean ====
/-
  What the kernel's result array holds after the run, index by index.

  The pallas_call walks the padded input, 1007616 rows of 128, in 123 tiles of 8192 rows. At tile `t` the body reads
  rows `8192 t … 8192 t + 8191` of the padded input, the whole weight matrices and the two one-row biases, and stores
  one column of 8192 numbers: entry `p` is the two-layer perceptron (Mlp.lean) of the tile's row `p`. The tiles are
  written back at rows `8192 t …` of the result, and together they cover it. So the result array ends holding, at
  (r, 0), the perceptron of row `r` of the padded input.
-/
import proofs.«110449_j77781857730660_1_alg».proof.Proof.Gen.KernelIdeal.Frame
import proofs.«110449_j77781857730660_1_alg».proof.Proof.Mlp
import Idealize.ShloMosaic.Lib.Pipeline.Value
import Idealize.ShloMosaic.PureOps.Ideal
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

theorem zero_off : (![0, 0] : Fin 2 → Nat) = fun _ => 0 := funext fun a => by fin_cases a <;> rfl

/-- Entry `p` of what the body stores is the perceptron of row `p` of the input tile it loaded, with the weights and
    biases it loaded. -/
theorem stored_apply (x0 : Vec Ideal S8192x128 .f32) (x1 : Vec Ideal S128x64 .f32) (x2 : Vec Ideal S1x64 .f32)
    (x3 : Vec Ideal S64x1 .f32) (x4 : Vec Ideal S1x1 .f32) (p : Fin 8192) :
    k0_pay1 x0 x1 x2 x3 x4 (ix2 p (0 : Fin 1))
      = Mlp.mlp (fun j => x0 (ix2 p j)) (fun j k => x1 (ix2 j k)) (fun k => x2 (ix2 (0 : Fin 1) k))
          (fun k => x3 (ix2 k (0 : Fin 1))) (x4 (ix2 (0 : Fin 1) (0 : Fin 1))) := by
  unfold k0_pay1
  exact Mlp.kernel_mlp_apply dot_S8192x128_S128x64_S8192x64_1_0_0_1_n_n rfl dot_S8192x64_S64x1_S8192x1_1_0_0_1_n_n rfl
    x0 x1 x2 x3 x4 _ _ _ _ _ _ p

/-- The block index of every window at every grid point: the input and the result move with the point along the rows,
    the weights and biases stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input window's block at point `t` is rows `8192 t … 8192 t + 8191` of the padded input. -/
theorem input_block_apply (c : Dev nD) (t : Fin cfg0.N) (p : Fin 8192) (j : Fin 128) (r : Fin 1007616)
    (hr : r.val = t.val * 8192 + p.val) :
    (iblk m c 0 t : Vec Ideal S8192x128 .f32) (ix2 p j) = (V m c main_v0 : S1007616x128.Idx → EReal) (ix2 r j) := by
  obtain ⟨h0, h1, -⟩ := block_index t
  unfold iblk
  rw [View.read_apply]
  show V m c main_v0 _ = V m c main_v0 _
  congr 1
  funext a
  apply Fin.ext
  match a with
  | ⟨0, _⟩ => show win0_0.index t 0 * 8192 + 1 * p.val = r.val; rw [h0, hr]; omega
  | ⟨1, _⟩ => show win0_0.index t 1 * 128 + 1 * j.val = j.val; rw [h1]; omega

/-- The first weight matrix's block at every point is the whole matrix. -/
theorem w1_block_apply (c : Dev nD) (t : Fin cfg0.N) (j : Fin 128) (k : Fin 64) :
    (iblk m c 1 t : Vec Ideal S128x64 .f32) (ix2 j k) = (V m c main_arg3 : S128x64.Idx → EReal) (ix2 j k) := by
  obtain ⟨-, -, h0, h1, -⟩ := block_index t
  unfold iblk
  rw [View.read_apply]
  show V m c main_arg3 _ = V m c main_arg3 _
  congr 1
  funext a
  apply Fin.ext
  match a with
  | ⟨0, _⟩ => show win0_1.index t 0 * 128 + 1 * j.val = j.val; rw [h0]; omega
  | ⟨1, _⟩ => show win0_1.index t 1 * 64 + 1 * k.val = k.val; rw [h1]; omega

/-- The first bias's block at every point is the whole one-row matrix. -/
theorem b1_block_apply (c : Dev nD) (t : Fin cfg0.N) (u : Fin 1) (k : Fin 64) :
    (iblk m c 2 t : Vec Ideal S1x64 .f32) (ix2 u k) = (V m c main_v1 : S1x64.Idx → EReal) (ix2 u k) := by
  obtain ⟨-, -, -, -, h0, h1, -⟩ := block_index t
  unfold iblk
  rw [View.read_apply]
  show V m c main_v1 _ = V m c main_v1 _
  congr 1
  funext a
  apply Fin.ext
  match a with
  | ⟨0, _⟩ => show win0_2.index t 0 * 1 + 1 * u.val = u.val; rw [h0]; omega
  | ⟨1, _⟩ => show win0_2.index t 1 * 64 + 1 * k.val = k.val; rw [h1]; omega

/-- The second weight matrix's block at every point is the whole column. -/
theorem w2_block_apply (c : Dev nD) (t : Fin cfg0.N) (k : Fin 64) (u : Fin 1) :
    (iblk m c 3 t : Vec Ideal S64x1 .f32) (ix2 k u) = (V m c main_arg5 : S64x1.Idx → EReal) (ix2 k u) := by
  obtain ⟨-, -, -, -, -, -, h0, h1, -⟩ := block_index t
  unfold iblk
  rw [View.read_apply]
  show V m c main_arg5 _ = V m c main_arg5 _
  congr 1
  funext a
  apply Fin.ext
  match a with
  | ⟨0, _⟩ => show win0_3.index t 0 * 64 + 1 * k.val = k.val; rw [h0]; omega
  | ⟨1, _⟩ => show win0_3.index t 1 * 1 + 1 * u.val = u.val; rw [h1]; omega

/-- The second bias's block at every point is the whole one-entry matrix. -/
theorem b2_block_apply (c : Dev nD) (t : Fin cfg0.N) (u v : Fin 1) :
    (iblk m c 4 t : Vec Ideal S1x1 .f32) (ix2 u v) = (V m c main_v2 : S1x1.Idx → EReal) (ix2 u v) := by
  obtain ⟨-, -, -, -, -, -, -, -, h0, h1, -⟩ := block_index t
  unfold iblk
  rw [View.read_apply]
  show V m c main_v2 _ = V m c main_v2 _
  congr 1
  funext a
  apply Fin.ext
  match a with
  | ⟨0, _⟩ => show win0_4.index t 0 * 1 + 1 * u.val = u.val; rw [h0]; omega
  | ⟨1, _⟩ => show win0_4.index t 1 * 1 + 1 * v.val = v.val; rw [h1]; omega

/-- The perceptron of every row of the padded input as the region finds it, the weights and the one-row biases as the
    region finds them. -/
def perRow (c : Dev nD) : S1007616x1.Idx → EReal := fun i =>
  Mlp.mlp (fun j => (V m c main_v0 : S1007616x128.Idx → EReal) (ix2 (i 0 : Fin 1007616) j))
    (fun j k => (V m c main_arg3 : S128x64.Idx → EReal) (ix2 j k))
    (fun k => (V m c main_v1 : S1x64.Idx → EReal) (ix2 (0 : Fin 1) k))
    (fun k => (V m c main_arg5 : S64x1.Idx → EReal) (ix2 k (0 : Fin 1)))
    ((V m c main_v2 : S1x1.Idx → EReal) (ix2 (0 : Fin 1) (0 : Fin 1)))

/-- What point `t` writes back is block `t` of `perRow`. -/
theorem flushed_eq (c : Dev nD) (t : Fin cfg0.N) :
    (dats m 0 c).flushed 5 t = ((cfg0.win 5).blk t).view.read (Elt Ideal) (perRow m c) := by
  show (cfg0.win 5).cut (grid0.coords t) ((dats m 0 c).after 5 t) = _
  rw [after0_5]
  unfold out0_5
  rw [View.canon_unit_zero zero_off]
  simp only [View.ld_unit_zero (S := S8192x128) zero_off, View.ld_unit_zero (S := S128x64) zero_off,
    View.ld_unit_zero (S := S1x64) zero_off, View.ld_unit_zero (S := S64x1) zero_off, View.ld_unit_zero (S := S1x1) zero_off]
  obtain ⟨-, -, -, -, -, -, -, -, -, -, h50, h51⟩ := block_index t
  funext y
  obtain ⟨p, q, rfl⟩ : ∃ (p : Fin 8192) (q : Fin 1), y = ix2 p q := ⟨y 0, y 1, eq_ix2 y⟩
  obtain rfl : q = 0 := Subsingleton.elim _ _
  show k0_pay1 (iblk m c 0 t) (iblk m c 1 t) (iblk m c 2 t) (iblk m c 3 t) (iblk m c 4 t) (ix2 p (0 : Fin 1))
      = perRow m c (((cfg0.win 5).blk t).view.emb (ix2 p (0 : Fin 1)))
  refine (stored_apply (iblk m c 0 t) (iblk m c 1 t) (iblk m c 2 t) (iblk m c 3 t) (iblk m c 4 t) p).trans ?_
  unfold perRow
  show Mlp.mlp _ _ _ _ _ = Mlp.mlp _ _ _ _ _
  refine Mlp.mlp_ext (fun j => ?_) (fun j k => ?_) (fun k => ?_) (fun k => ?_) ?_
  · exact input_block_apply m c t p j _ (by
      show win0_5.index t 0 * 8192 + 1 * p.val = t.val * 8192 + p.val
      rw [h50]; omega)
  · exact w1_block_apply m c t j k
  · exact b1_block_apply m c t 0 k
  · exact w2_block_apply m c t k 0
  · exact b2_block_apply m c t 0 0

/-- An index of the result array is in point `t`'s block iff each coordinate is in the block's range on its axis. -/
theorem mem_block (t : Fin cfg0.N) (i : S1007616x1.Idx) :
    i ∈ ((cfg0.win 5).blk t).view.set
      ↔ ∀ a : Fin 2, win0_5.index t a * S8192x1.size a ≤ (i a).val ∧ (i a).val < win0_5.index t a * S8192x1.size a + S8192x1.size a := by
  show i ∈ ((View.whole main_v3).slice (win0_5.rect t)).set ↔ _
  rw [View.set_slice_whole, Rect.mem_set_unit]
  exact Iff.rfl

/-- Row `r` of the result is in the block of point `r / 8192`, which is written back. -/
theorem covered (i : S1007616x1.Idx) :
    ∃ t : Fin cfg0.N, (cfg0.win 5).flush t = true ∧ i ∈ ((cfg0.win 5).blk t).view.set := by
  have hi0 : (i 0).val < 1007616 := (i 0).isLt
  have hi1 : (i 1).val < 1 := (i 1).isLt
  have hN : cfg0.N = 123 := N_0
  have ht : (i 0).val / 8192 < cfg0.N := by rw [hN]; omega
  obtain ⟨-, -, -, -, -, -, -, -, -, -, h50, h51⟩ := block_index ⟨(i 0).val / 8192, ht⟩
  refine ⟨⟨(i 0).val / 8192, ht⟩, flush0_5 _, ?_⟩
  rw [mem_block]
  intro a
  match a with
  | ⟨0, _⟩ =>
    show win0_5.index ⟨(i 0).val / 8192, ht⟩ 0 * 8192 ≤ (i 0).val
      ∧ (i 0).val < win0_5.index ⟨(i 0).val / 8192, ht⟩ 0 * 8192 + 8192
    rw [h50]
    show (i 0).val / 8192 * 8192 ≤ (i 0).val ∧ (i 0).val < (i 0).val / 8192 * 8192 + 8192
    omega
  | ⟨1, _⟩ =>
    show win0_5.index ⟨(i 0).val / 8192, ht⟩ 1 * 1 ≤ (i 1).val ∧ (i 1).val < win0_5.index ⟨(i 0).val / 8192, ht⟩ 1 * 1 + 1
    rw [h51]
    omega

/-- The result array after the run: the perceptron of every row of the padded input. -/
theorem result_array (c : Dev nD) : (dats m 0 c).arrAt 5 cfg0.N = perRow m c :=
  (dats m 0 c).arrAt_eq_of_cover 5 (perRow m c) (fun t _ => flushed_eq m c t) covered

end Cert.KernelIdeal.Blocks

end
-- ==== Proof.KernelRun.lean ====
/-
  The kernel program's run, read: what the returned array holds.

  Before the region the host pads the input with 7616 rows of the constant 0 and reshapes the two bias vectors to
  one-row matrices; the region leaves, at (r, 0) of its result, the perceptron of row `r` of the padded input
  (KernelBlocks.lean). After the region the host keeps the first 1000000 rows — rows of the unpadded input, where the
  padding is never read —, so that column is the perceptron of every row of the input (`Mlp.rows`); and then, from that
  column `so`, the positions, the mass table, the atomic numbers and the molecule ids, it computes per molecule the sum
  over its atoms of `so · |pos − centroid|²`, the centroid the mass-weighted mean position of the molecule's atoms:
  `moments` below, the same chain of gathers, scatter-adds, a quotient and a row sum whatever `so` is.
-/
import proofs.«110449_j77781857730660_1_alg».proof.Proof.KernelBlocks
import Idealize.ShloMosaic.Lib.StableHlo.Run
import Idealize.ShloMosaic.Lib.KernelVsHost
import Idealize.ShloMosaic.Lib.ValueLayout

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Run

open Cert.KernelIdeal Cert.KernelIdeal.Gen

/-! ## The host operations after the region, as functions -/

/-- An index vector with jnp's wrap of negative entries: `idx + n` where `idx < 0`, else `idx`. -/
def wrapped (n : BitVec 32) (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 n))) idx

/-- Each atom's mass, looked up in the table by atomic number, as a column. -/
def masses (mass : FVec Ideal S119 .f32) (atno : IVec S1000000 32) :
    FVec Ideal S1000000x1 .f32 :=
  broadcastInDim S1000000x1 ![0] bcast_S1000000_S1000000x1_0
    (Host.gather gather_S119_S1000000x1_S1000000_n_0_n_n_0_1_1 mass
      (broadcastInDim S1000000x1 ![0] bcast_S1000000_S1000000x1_0 (wrapped 119#32 atno)))

/-- Each molecule's mass-weighted mean position: the per-molecule sum of `mass · pos` over the per-molecule sum of
    masses. -/
def centroids (pos : FVec Ideal S1000000x3 .f32) (mass : FVec Ideal S119 .f32)
    (atno batch : IVec S1000000 32) : FVec Ideal S50000x3 .f32 :=
  Host.divf
    (Host.scatterAdd scatter_S50000x3_S1000000x1_S1000000x3_1_0_0_1
      (broadcastInDim S50000x3 ![] bcast_S_S50000x3 (constant (F := Ideal) S_ .f32 0x00000000#32))
      (broadcastInDim S1000000x1 ![0] bcast_S1000000_S1000000x1_0 batch)
      (mulf (broadcastInDim S1000000x3 ![0, 1] bcast_S1000000x1_S1000000x3_0_1 (masses mass atno)) pos))
    (broadcastInDim S50000x3 ![0, 1] bcast_S50000x1_S50000x3_0_1
      (Host.scatterAdd scatter_S50000x1_S1000000x1_S1000000x1_1_0_0_1
        (broadcastInDim S50000x1 ![] bcast_S_S50000x1 (constant (F := Ideal) S_ .f32 0x00000000#32))
        (broadcastInDim S1000000x1 ![0] bcast_S1000000_S1000000x1_0 batch)
        (masses mass atno)))

/-- Each atom's position relative to its molecule's centroid. -/
def centred (pos : FVec Ideal S1000000x3 .f32) (mass : FVec Ideal S119 .f32)
    (atno batch : IVec S1000000 32) : FVec Ideal S1000000x3 .f32 :=
  subf pos
    (Host.gather gather_S50000x3_S1000000x1_S1000000x3_1_0_n_n_0_1_13 (centroids pos mass atno batch)
      (broadcastInDim S1000000x1 ![0] bcast_S1000000_S1000000x1_0 (wrapped 50000#32 batch)))

/-- Per molecule, the sum over its atoms of `so · |pos − centroid|²`. -/
def moments (so : FVec Ideal S1000000x1 .f32) (pos : FVec Ideal S1000000x3 .f32)
    (mass : FVec Ideal S119 .f32) (atno batch : IVec S1000000 32) :
    FVec Ideal S50000x1 .f32 :=
  Host.scatterAdd scatter_S50000x1_S1000000x1_S1000000x1_1_0_0_1
    (broadcastInDim S50000x1 ![] bcast_S_S50000x1 (constant (F := Ideal) S_ .f32 0x00000000#32))
    (broadcastInDim S1000000x1 ![0] bcast_S1000000_S1000000x1_0 batch)
    (mulf so
      (broadcastInDim S1000000x1 ![0] bcast_S1000000_S1000000x1_0
        (Host.reduceAdd (mulf (centred pos mass atno batch) (centred pos mass atno batch)) (constant (F := Ideal) S_ .f32 0x00000000#32)
          reducesTo_S1000000x3_S1000000_d1 h_S_)))

variable (m : (ℓ : Loc nD τ sig) → Buf (Elt Ideal) ℓ) (ρ : Dev nD → PrngReg)

/-! ## The arrays the region finds -/

/-- The region's input is the argument padded with 7616 rows of the converted integer 0. -/
theorem padded_input (c : Dev nD) :
    (V m c main_v0 : S1007616x128.Idx → EReal)
      = pad S1007616x128 ![0, 0] ![7616, 0] ![0, 0] (m ((c : Thread nD τ).loc main_arg0))
          (sitofp (F := Ideal) .f32 (constantI S_ 32 0#32)) pads_S1000000x128_S1007616x128_076160_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-- The first bias as the region finds it: the bias vector as a one-row matrix. -/
theorem bias1_row (c : Dev nD) :
    (V m c main_v1 : S1x64.Idx → EReal) = shapeCast S1x64 (m ((c : Thread nD τ).loc main_arg4)) shapeCasts_S64_S1x64 := by
  dsimp only [Gen.V, Gen.V0]
  simp only [Gen.hostOps0, Gen.hostOps0_1, Gen.hostOps0_2, List.flatten_cons, List.flatten_nil, List.append_nil,
    List.cons_append, List.nil_append]
  after_results
  rfl

/-- The second bias as the region finds it: the one-entry vector as a one-entry matrix. -/
theorem bias2_row (c : Dev nD) :
    (V m c main_v2 : S1x1.Idx → EReal) = shapeCast S1x1 (m ((c : Thread nD τ).loc main_arg6)) shapeCasts_S1_S1x1 := by
  dsimp only [Gen.V, Gen.V0]
  simp only [Gen.hostOps0, Gen.hostOps0_1, Gen.hostOps0_2, List.flatten_cons, List.flatten_nil, List.append_nil,
    List.cons_append, List.nil_append]
  after_results
  rfl

/-! ## The perceptron's column -/

/-- The first 1000000 rows of the region's result: the perceptron of every row of the input. A kept row is a row of the
    unpadded input, so the padding is not read. -/
theorem kept_rows (c : Dev nD) :
    extractStridedSlice S1000000x1 ![0, 0] (Blocks.perRow m c) slices_S1007616x1_S1000000x1_0_0
      = Mlp.rows (m ((c : Thread nD τ).loc main_arg0)) (m ((c : Thread nD τ).loc main_arg3))
          (m ((c : Thread nD τ).loc main_arg4)) (m ((c : Thread nD τ).loc main_arg5)) (m ((c : Thread nD τ).loc main_arg6)) := by
  funext i
  obtain ⟨e, u, rfl⟩ : ∃ (e : Fin 1000000) (u : Fin 1), i = ix2 e u := ⟨i 0, i 1, eq_ix2 i⟩
  obtain rfl : u = 0 := Subsingleton.elim _ _
  have he : e.val < 1000000 := e.isLt
  refine (slice2_axis0_apply 0 (Blocks.perRow m c) slices_S1007616x1_S1000000x1_0_0 e (0 : Fin 1)
    (⟨e.val, by omega⟩ : Fin 1007616) (Nat.zero_add _).symm).trans ?_
  unfold Blocks.perRow Mlp.rows
  show Mlp.mlp _ _ _ _ _ = Mlp.mlp _ _ _ _ _
  refine Mlp.mlp_ext (fun j => ?_) (fun j k => ?_) (fun k => ?_) (fun k => ?_) ?_
  · refine (congrFun (padded_input m c) _).trans ?_
    refine pad_apply_of_inside _ _ _ _ _ _ _ _ (ix2 e j) (fun a => ?_)
    match a with
    | ⟨0, _⟩ => show e.val = 0 + e.val * (0 + 1); omega
    | ⟨1, _⟩ => show j.val = 0 + j.val * (0 + 1); omega
  · exact congrFun (V_main_arg3 m c) (ix2 j k)
  · refine (congrFun (bias1_row m c) _).trans ?_
    exact shapeCast_a_1a_apply _ _ (0 : Fin 1) k
  · exact congrFun (V_main_arg5 m c) (ix2 k (0 : Fin 1))
  · refine (congrFun (bias2_row m c) _).trans ?_
    exact shapeCast_a_1a_apply _ _ (0 : Fin 1) (0 : Fin 1)

/-! ## The returned array -/

set_option maxRecDepth 16384 in
set_option maxHeartbeats 2000000 in
/-- What the host operations after the region leave in the returned array: `moments` of the first 1000000 rows of the
    region's result array and of the argument arrays. -/
theorem returned (c : Dev nD) :
    Pipeline.afterTail₀ cfgs (dats m) 0 (V0 m) [hostOps1] c main_v37
      = moments (extractStridedSlice S1000000x1 ![0, 0] ((dats m 0 c).arrAt 5 cfg0.N) slices_S1007616x1_S1000000x1_0_0)
          (m ((c : Thread nD τ).loc main_arg1)) (m ((c : Thread nD τ).loc main_arg2))
          (m ((c : Thread nD τ).loc main_arg7)) (m ((c : Thread nD τ).loc main_arg8)) := by
  have h1 := (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)
  have h2 := (Pipeline.withArrays_of_ne (cfgs 0).spec c (V0 m c) (fun w => (dats m 0 c).arrAt w (cfgs 0).N) main_arg2
    (by exact (by decide : ∀ w, Pipeline.arrRef spec0 w ≠ main_arg2))).trans (V_main_arg2 m c)
  have h7 := (Pipeline.withArrays_of_ne (cfgs 0).spec c (V0 m c) (fun w => (dats m 0 c).arrAt w (cfgs 0).N) main_arg7
    (by exact (by decide : ∀ w, Pipeline.arrRef spec0 w ≠ main_arg7))).trans (V_main_arg7 m c)
  have h8 := (Pipeline.withArrays_of_ne (cfgs 0).spec c (V0 m c) (fun w => (dats m 0 c).arrAt w (cfgs 0).N) main_arg8
    (by exact (by decide : ∀ w, Pipeline.arrRef spec0 w ≠ main_arg8))).trans (V_main_arg8 m c)
  have h3 : Pipeline.withArrays (cfgs 0).spec c (V0 m c) (fun w => (dats m 0 c).arrAt w (cfgs 0).N) (Proc.devRef .tc main_v3)
      = (dats m 0 c).arrAt 5 cfg0.N :=
    Pipeline.withArrays_arr (cfgs 0).spec launch0.win.arr_inj c (V0 m c) (fun w => (dats m 0 c).arrAt w (cfgs 0).N) 5
  unfold Pipeline.afterTail₀
  show StableHlo.after hostOps1 _ (Proc.devRef .tc main_v37) = _
  after_results_simp
  rw [h1, h2, h7, h8, h3]
  unfold moments centred centroids masses wrapped
  rfl

/-! ## The run -/

/-- Every weakly fair execution of the kernel program terminates with the returned array at `moments` of the
    perceptron's column and the argument arrays unchanged. -/
theorem run : θ_run defs (onTc (τ := τ) (main (F := Ideal))) ⟨m, fun _ => 0, ρ⟩ fun r => ∀ c : Dev nD,
      r.2.mem ((c.tc : Thread nD τ).loc main_v37)
        = moments (Mlp.rows (m ((c : Thread nD τ).loc main_arg0)) (m ((c : Thread nD τ).loc main_arg3))
            (m ((c : Thread nD τ).loc main_arg4)) (m ((c : Thread nD τ).loc main_arg5)) (m ((c : Thread nD τ).loc main_arg6)))
          (m ((c : Thread nD τ).loc main_arg1)) (m ((c : Thread nD τ).loc main_arg2))
          (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v37 (Pipeline.mem_restRefs_of main_v37 (by decide) (by decide))).trans
        ((returned m c).trans (by rw [Blocks.result_array m c, kept_rows m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Run

end
-- ==== Proof.RefValue.lean ====
/-
  The reference program's returned array.

  The reference computes the perceptron of every row of the input on the host — two rows-by-columns products, the
  biases laid along the rows, SiLU with the logistic function spelt `1 / (1 + exp (-h))` — and from that column the
  same per-molecule moments as the kernel program: the same chain of gathers, scatter-adds, a quotient and a row sum
  applied to the same arguments, in a different order of lines. Read at (e, 0) the host's column is the perceptron of
  row `e` (Mlp.lean), so the returned array is `moments` of `Mlp.rows` of the arguments.
-/
import proofs.«110449_j77781857730660_1_alg».proof.Proof.Gen.ReferenceIdeal.Read
import proofs.«110449_j77781857730660_1_alg».proof.Proof.KernelRun

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The host's perceptron column is the perceptron of every row of the input. -/
theorem column_eq (x0 : (⟨S1000000x128, .f32⟩ : BufTy).Contents (Elt Ideal)) (x3 : (⟨S128x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) :
    val_main_v34 (F := Ideal) x0 x3 x4 x5 x6 = Mlp.rows x0 x3 x4 x5 x6 := by
  funext i
  obtain ⟨e, u, rfl⟩ : ∃ (e : Fin 1000000) (u : Fin 1), i = ix2 e u := ⟨i 0, i 1, eq_ix2 i⟩
  obtain rfl : u = 0 := Subsingleton.elim _ _
  unfold Mlp.rows
  exact Mlp.host_mlp_apply dot_S1000000x128_S128x64_S1000000x64_1_0_0_1_n_n rfl
    dot_S1000000x64_S64x1_S1000000x1_1_0_0_1_n_n rfl x0 x3 x4 x5 x6 bcast_S64_S1x64_1 bcast_S1x64_S1000000x64_0_1
    bcast_S_S1000000x64 bcast_S1_S1x1_1 bcast_S1x1_S1000000x1_0_1 e

set_option maxHeartbeats 1000000 in
/-- The reference's returned array is the per-molecule moments of the perceptron's column. -/
theorem returned (m : (ℓ : Loc nD τ sig) → Buf (Elt Ideal) ℓ) (c : Dev nD) :
    Cert.ReferenceIdeal.Value.res_main_v41 m c
      = Cert.KernelIdeal.Run.moments
          (Mlp.rows (m ((c.tc : Thread nD τ).loc main_arg0)) (m ((c.tc : Thread nD τ).loc main_arg3))
            (m ((c.tc : Thread nD τ).loc main_arg4)) (m ((c.tc : Thread nD τ).loc main_arg5)) (m ((c.tc : Thread nD τ).loc main_arg6)))
          (m ((c.tc : Thread nD τ).loc main_arg1)) (m ((c.tc : Thread nD τ).loc main_arg2))
          (m ((c.tc : Thread nD τ).loc main_arg7)) (m ((c.tc : Thread nD τ).loc main_arg8)) := by
  rw [val_main_v41_eq, ← column_eq]
  unfold Cert.KernelIdeal.Run.moments Cert.KernelIdeal.Run.centred Cert.KernelIdeal.Run.centroids Cert.KernelIdeal.Run.masses
    Cert.KernelIdeal.Run.wrapped
  rfl

end Cert.ReferenceIdeal.RefValue

end
-- ==== Proof.lean ====
/-
  The kernel program computes, per molecule, the sum over the molecule's atoms of `so · |pos − centroid|²`, where `so`
  is a two-layer perceptron with SiLU of the atom's 128 features and the centroid is the mass-weighted mean position of
  the molecule's atoms. It runs the perceptron in a pallas_call over 123 tiles of 8192 rows of the input padded with
  zero rows, in another float format for the products' operands and with the logistic function as one operation, and
  keeps the first 1000000 rows of its result; the reference runs the perceptron on the host over all rows at once,
  with the logistic function spelt `1 / (1 + exp (-h))`. On the extended reals a change of float format is the
  identity, a product accumulated into zeros over a tile of rows and a product over all rows read the same sum at
  every entry, the logistic function IS `1 / (1 + e^(-h))`, and a kept row never reads the padding: so the two
  perceptron columns are one function of the arguments (`Mlp.rows`), entry by entry, at every extended real — the
  precondition is not used. The operations after the perceptron are the same in both programs, applied to that column
  and to the same arguments (`moments`).

  Modules: LibDense (a rows-by-columns product read at an entry), Mlp (the perceptron of a row; the kernel's and the
  host's spellings read at an entry), KernelBlocks (the region's result array from its tiles), KernelRun (the arrays the
  region finds, the operations after it, the kernel program's run), RefValue (the reference's returned array).
  The idealized kernel is the kernel's own text read on the extended reals: nothing to preserve.
-/
import proofs.«110449_j77781857730660_1_alg».proof.Defs
import proofs.«110449_j77781857730660_1_alg».proof.Proof.Gen.Kernel
import proofs.«110449_j77781857730660_1_alg».proof.Proof.Gen.Kernel.Skeleton
import proofs.«110449_j77781857730660_1_alg».proof.Proof.Gen.Kernel.Launch
import proofs.«110449_j77781857730660_1_alg».proof.Proof.Gen.Kernel.Points
import proofs.«110449_j77781857730660_1_alg».proof.Proof.Gen.Kernel.Frame
import proofs.«110449_j77781857730660_1_alg».proof.Proof.Gen.KernelIdeal
import proofs.«110449_j77781857730660_1_alg».proof.Proof.Gen.KernelIdeal.Skeleton
import proofs.«110449_j77781857730660_1_alg».proof.Proof.Gen.KernelIdeal.Launch
import proofs.«110449_j77781857730660_1_alg».proof.Proof.Gen.KernelIdeal.Points
import proofs.«110449_j77781857730660_1_alg».proof.Proof.Gen.KernelIdeal.Frame
import proofs.«110449_j77781857730660_1_alg».proof.Proof.Gen.ReferenceIdeal
import proofs.«110449_j77781857730660_1_alg».proof.Proof.Gen.Pre_finite_inputs
import proofs.«110449_j77781857730660_1_alg».proof.Proof.Gen.ReferenceIdeal.Run
import proofs.«110449_j77781857730660_1_alg».proof.Proof.Gen.ReferenceIdeal.Read
import proofs.«110449_j77781857730660_1_alg».proof.Proof.KernelRun
import proofs.«110449_j77781857730660_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the returned array at the per-molecule moments of the perceptron's column of arguments that
    agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.returned]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
